-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50000 : Shape := ⟨2, ![64, 50000]⟩
abbrev S2000000 : Shape := ⟨1, ![2000000]⟩
abbrev S_ : Shape := ⟨0, ![]⟩

class Facts : Prop where
  bcast_S_S64x50000 : S_.BroadcastsInDim S64x50000 (![] : Fin 0 → Fin S64x50000.rank)
  reducesTo_S64x50000_S_d0_1 : S64x50000.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S64x50000 .f32) (main_arg1 : FVec F S2000000 .f32) (main_arg2 : IVec S2000000 32) (main_arg3 : IVec S2000000 32) : IVec S_ 1 :=
  let main_v0 : FVec F S64x50000 .f32 := Host.absf main_arg0
  let main_cst : FVec F S_ .f32 := constant S_ .f32 0x7F800000#32
  let main_v1 : FVec F S64x50000 .f32 := broadcastInDim S64x50000 ![] bcast_S_S64x50000 main_cst
  let main_v2 : IVec S64x50000 1 := cmpf .olt main_v0 main_v1
  let main_c : IVec S_ 1 := constantI S_ 1 1#1
  let main_v3 : IVec S_ 1 := (fun x v => Host.reduce IntOp.andi x v reducesTo_S64x50000_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_c_2 : IVec S_ 32 := constantI S_ 32 4294917296#32
  let main_v9 : IVec S2000000 32 := broadcastInDim S2000000 ![] bcast_S_S2000000 main_c_2
  let main_v10 : IVec S2000000 1 := cmpi .sge main_arg2 main_v9
  let main_c_3 : IVec S_ 32 := constantI S_ 32 50000#32
  let main_v11 : IVec S2000000 32 := broadcastInDim S2000000 ![] bcast_S_S2000000 main_c_3
  let main_v12 : IVec S2000000 1 := cmpi .slt main_arg2 main_v11
  let main_v13 : IVec S2000000 1 := andi main_v10 main_v12
  let main_c_4 : IVec S_ 1 := constantI S_ 1 1#1
  let main_v14 : IVec S_ 1 := (fun x v => Host.reduce IntOp.andi x v reducesTo_S2000000_S_d0 h_S_) main_v13 main_c_4
  let main_v15 : IVec S_ 1 := andi main_v8 main_v14
  main_v15
-- ==== Kernel.lean ====
abbrev S64x50000 : Shape := ⟨2, ![64, 50000]⟩
abbrev S2000000 : Shape := ⟨1, ![2000000]⟩
abbrev S_ : Shape := ⟨0, ![]⟩
abbrev S50000x1024 : Shape := ⟨2, ![50000, 1024]⟩
abbrev S2000000x1 : Shape := ⟨2, ![2000000, 1]⟩
abbrev S2000000x2 : Shape := ⟨2, ![2000000, 2]⟩
abbrev S64x50176 : Shape := ⟨2, ![64, 50176]⟩
abbrev S50176x1024 : Shape := ⟨2, ![50176, 1024]⟩
abbrev S64x1024 : Shape := ⟨2, ![64, 1024]⟩
abbrev S64x12544 : Shape := ⟨2, ![64, 12544]⟩
abbrev S12544x512 : Shape := ⟨2, ![12544, 512]⟩
abbrev S64x512 : Shape := ⟨2, ![64, 512]⟩

abbrev nBuf : Space → Nat
  | .hbm => 33
  | .vmem => 6
  | .smem => 0
  | _ => 0

abbrev bufTy : (tb : Table) → Fin (tcTables nBuf tb) → BufTy
  | .hbm, ⟨0, _⟩ => ⟨S64x50000, .f32⟩
  | .hbm, ⟨1, _⟩ => ⟨S2000000, .f32⟩
  | .hbm, ⟨2, _⟩ => ⟨S2000000, .i32⟩
  | .hbm, ⟨3, _⟩ => ⟨S2000000, .i32⟩
  | .hbm, ⟨4, _⟩ => ⟨S_, .f32⟩
  | .hbm, ⟨5, _⟩ => ⟨S50000x1024, .f32⟩
  | .hbm, ⟨6, _⟩ => ⟨S_, .i32⟩
  | .hbm, ⟨7, _⟩ => ⟨S2000000, .i32⟩
  | .hbm, ⟨8, _⟩ => ⟨S2000000, .i1⟩
  | .hbm, ⟨9, _⟩ => ⟨S_, .i32⟩
  | .hbm, ⟨10, _⟩ => ⟨S2000000, .i32⟩
  | .hbm, ⟨11, _⟩ => ⟨S2000000, .i32⟩
  | .hbm, ⟨12, _⟩ => ⟨S2000000, .i32⟩
  | .hbm, ⟨13, _⟩ => ⟨S_, .i32⟩
  | .hbm, ⟨14, _⟩ => ⟨S2000000, .i32⟩
  | .hbm, ⟨15, _⟩ => ⟨S2000000, .i1⟩
  | .hbm, ⟨16, _⟩ => ⟨S_, .i32⟩
  | .hbm, ⟨17, _⟩ => ⟨S2000000, .i32⟩
  | .hbm, ⟨18, _⟩ => ⟨S2000000, .i32⟩
  | .hbm, ⟨19, _⟩ => ⟨S2000000, .i32⟩
  | .hbm, ⟨20, _⟩ => ⟨S2000000x1, .i32⟩
  | .hbm, ⟨21, _⟩ => ⟨S2000000x1, .i32⟩
  | .hbm, ⟨22, _⟩ => ⟨S2000000x2, .i32⟩
  | .hbm, ⟨23, _⟩ => ⟨S50000x1024, .f32⟩
  | .hbm, ⟨24, _⟩ => ⟨S_, .i32⟩
  | .hbm, ⟨25, _⟩ => ⟨S_, .f32⟩
  | .hbm, ⟨26, _⟩ => ⟨S64x50176, .f32⟩
  | .hbm, ⟨27, _⟩ => ⟨S_, .i32⟩
  | .hbm, ⟨28, _⟩ => ⟨S_, .f32⟩
  | .hbm, ⟨29, _⟩ => ⟨S50176x1024, .f32⟩
  | .hbm, ⟨30, _⟩ => ⟨S64x50176, .bf16⟩
  | .hbm, ⟨31, _⟩ => ⟨S50176x1024, .bf16⟩
  | .hbm, ⟨32, _⟩ => ⟨S64x1024, .f32⟩
  | .local _ .vmem, ⟨0, _⟩ => ⟨S64x12544, .bf16⟩
  | .local _ .vmem, ⟨1, _⟩ => ⟨S64x12544, .bf16⟩
  | .local _ .vmem, ⟨2, _⟩ => ⟨S12544x512, .bf16⟩
  | .local _ .vmem, ⟨3, _⟩ => ⟨S12544x512, .bf16⟩
  | .local _ .vmem, ⟨4, _⟩ => ⟨S64x512, .f32⟩
  | .local _ .vmem, ⟨5, _⟩ => ⟨S64x512, .f32⟩
  | _, _ => ⟨S64x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_v15 : Ref sig .tc := ⟨.hbm, 26, rfl⟩
abbrev main_c_4 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x12544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S12544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S50000x1024 : S_.BroadcastsInDim S50000x1024 (![] : Fin 0 → Fin S50000x1024.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  pads_S64x50000_S64x50176_000_01760 : S64x50000.Pads (![0, 0] : Fin 2 → Nat) ![0, 176] ![0, 0] S64x50176
  h_S_ : 0 < S_.numel
  pads_S50000x1024_S50176x1024_01760_000 : S50000x1024.Pads (![0, 0] : Fin 2 → Nat) ![176, 0] ![0, 0] S50176x1024
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x12544_S64x12544_0_0 : ∀ a, (![0, 0] : Fin 2 → Nat) a + S64x12544.size a ≤ S64x12544.size a
  h_S64x12544 : 0 < S64x12544.numel
  shapeCasts_S64x12544_S64x12544 : S64x12544.ShapeCasts S64x12544
  inb_S12544x512_S12544x512_0_0 : ∀ a, (![0, 0] : Fin 2 → Nat) a + S12544x512.size a ≤ S12544x512.size a
  h_S12544x512 : 0 < S12544x512.numel
  shapeCasts_S12544x512_S12544x512 : S12544x512.ShapeCasts S12544x512
  scatter_S50000x1024_S2000000x2_S2000000_n_01_01_1_wf : ScatterDims.WF S50000x1024 S2000000x2 S2000000 [] [0, 1] [0, 1] 1
  dot_S64x12544_S12544x512_S64x512_1_0_0_1_n_n_wf : DotDims.WF S64x12544 S12544x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x12544.size a ≤ S64x50176.size a
  hwx0_0 : ∀ i : grid0.Coords, EltTy.bits .bf16 = 32 ∨ (Rect.block (s := S64x50176) S64x12544.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12544x512.size a ≤ S50176x1024.size a
  hwx0_1 : ∀ i : grid0.Coords, EltTy.bits .bf16 = 32 ∨ (Rect.block (s := S50176x1024) S12544x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x1024.size a
  hwx0_2 : ∀ i : grid0.Coords, EltTy.bits .f32 = 32 ∨ (Rect.block (s := S64x1024) S64x512.size (cc0_transform_2 i) (hinb0_2 i)).WholeWords (EltTy.packing .f32)

variable [Facts₀]

def scatter_S50000x1024_S2000000x2_S2000000_n_01_01_1 : ScatterDims S50000x1024 S2000000x2 S2000000 where
  updateWindowDims := []
  insertedWindowDims := [0, 1]
  scatterDimsToOperandDims := [0, 1]
  indexVectorDim := 1
  wf := scatter_S50000x1024_S2000000x2_S2000000_n_01_01_1_wf
def dot_S64x12544_S12544x512_S64x512_1_0_0_1_n_n : DotDims S64x12544 S12544x512 S64x512 where
  lhsContracting := [1]
  rhsContracting := [0]
  lhsNonContracting := [0]
  rhsNonContracting := [1]
  lhsBatch := []
  rhsBatch := []
  wf := dot_S64x12544_S12544x512_S64x512_1_0_0_1_n_n_wf

abbrev win0_0 : Pipeline.Window sig grid0 :=
  Pipeline.Window.ofSpec (Memref.whole main_v17) S64x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S12544x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x50000 : Shape := ⟨2, ![64, 50000]⟩
abbrev S2000000 : Shape := ⟨1, ![2000000]⟩
abbrev S_ : Shape := ⟨0, ![]⟩
abbrev S2000000x1 : Shape := ⟨2, ![2000000, 1]⟩
abbrev S64x2000000 : Shape := ⟨2, ![64, 2000000]⟩
abbrev S1x2000000 : Shape := ⟨2, ![1, 2000000]⟩
abbrev S64x1024 : Shape := ⟨2, ![64, 1024]⟩

abbrev nBuf : Space → Nat
  | .hbm => 27
  | .vmem => 0
  | .smem => 0
  | _ => 0

abbrev bufTy : (tb : Table) → Fin (tcTables nBuf tb) → BufTy
  | .hbm, ⟨0, _⟩ => ⟨S64x50000, .f32⟩
  | .hbm, ⟨1, _⟩ => ⟨S2000000, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i1⟩
  | .hbm, ⟨7, _⟩ => ⟨S_, .i32⟩
  | .hbm, ⟨8, _⟩ => ⟨S2000000, .i32⟩
  | .hbm, ⟨9, _⟩ => ⟨S2000000, .i32⟩
  | .hbm, ⟨10, _⟩ => ⟨S2000000, .i32⟩
  | .hbm, ⟨11, _⟩ => ⟨S2000000x1, .i32⟩
  | .hbm, ⟨12, _⟩ => ⟨S64x2000000, .f32⟩
  | .hbm, ⟨13, _⟩ => ⟨S1x2000000, .f32⟩
  | .hbm, ⟨14, _⟩ => ⟨S64x2000000, .f32⟩
  | .hbm, ⟨15, _⟩ => ⟨S64x2000000, .f32⟩
  | .hbm, ⟨16, _⟩ => ⟨S_, .f32⟩
  | .hbm, ⟨17, _⟩ => ⟨S64x1024, .f32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i32⟩
  | .hbm, ⟨24, _⟩ => ⟨S2000000, .i32⟩
  | .hbm, ⟨25, _⟩ => ⟨S2000000x1, .i32⟩
  | .hbm, ⟨26, _⟩ => ⟨S64x1024, .f32⟩
  | _, _ => ⟨S64x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000_S1x2000000_1 : S2000000.BroadcastsInDim S1x2000000 (![1] : Fin 1 → Fin S1x2000000.rank)
  bcast_S1x2000000_S64x2000000_0_1 : S1x2000000.BroadcastsInDim S64x2000000 (![0, 1] : Fin 2 → Fin S64x2000000.rank)
  bcast_S_S64x1024 : S_.BroadcastsInDim S64x1024 (![] : Fin 0 → Fin S64x1024.rank)
  gather_S64x50000_S2000000x1_S64x2000000_0_1_n_n_1_1_641_wf : GatherDims.WF S64x50000 S2000000x1 S64x2000000 [0] [1] [] [1] [] 1 ![64, 1]
  scatter_S64x1024_S2000000x1_S64x2000000_0_1_1_1_wf : ScatterDims.WF S64x1024 S2000000x1 S64x2000000 [0] [1] [1] 1

variable [Facts₀]

def gather_S64x50000_S2000000x1_S64x2000000_0_1_n_n_1_1_641 : GatherDims S64x50000 S2000000x1 S64x2000000 where
  offsetDims := [0]
  collapsedSliceDims := [1]
  operandBatchingDims := []
  startIndicesBatchingDims := []
  startIndexMap := [1]
  indexVectorDim := 1
  sliceSizes := ![64, 1]
  wf := gather_S64x50000_S2000000x1_S64x2000000_0_1_n_n_1_1_641_wf
def scatter_S64x1024_S2000000x1_S64x2000000_0_1_1_1 : ScatterDims S64x1024 S2000000x1 S64x2000000 where
  updateWindowDims := [0]
  insertedWindowDims := [1]
  scatterDimsToOperandDims := [1]
  indexVectorDim := 1
  wf := scatter_S64x1024_S2000000x1_S64x2000000_0_1_1_1_wf

class Facts : Prop extends Facts₀ where

variable [Facts]
-- ==== Proof.Spec.lean ====
/-
  A sparse matrix given by its entries (row word, column word, weight), applied to a dense matrix, two ways.

  An entry's index words may be negative: a negative word gets the axis extent added (`wrap`).  The dense
  matrix built from the entries holds at (k, n) the sum of the weights of the entries whose wrapped words are
  (k, n) (`dense`).  One side (`kernelOut`) multiplies a row of x, padded with zeros to 50176 columns, with a
  column of that dense matrix, padded with zero rows.  The other side (`refOut`) sums, over the entries whose
  wrapped column word is n, the element of x at the entry's row (read clamped to the last row) times the weight.
  For real-valued x and w and wrapped row words inside [0, 50000) the two are equal.
-/
import Idealize.ShloMosaic.PureOps.Ideal
import Idealize.ShloMosaic.Lib.ValueIdx
import Idealize.ShloMosaic.Lib.Affine
import Mathlib.Algebra.BigOperators.Fin

noncomputable section

namespace Cert.Sparse

open Idealize.ShloMosaic Idealize.ShloMosaic.ValueIdx
open scoped BigOperators

/-- An index word with the extent `N` added when it is negative. -/
def wrap (N v : BitVec 32) : BitVec 32 := Scalar.select (IntOp.cmpi .slt v 0#32) (IntOp.addi v N) v

/-- Entry `e`'s wrapped row word. -/
def rowW (ri : IVec (⟨1, ![2000000]⟩ : Shape) 32) (e : Fin 2000000) : BitVec 32 := wrap 50000#32 (ri (ix1 e))

/-- Entry `e`'s wrapped column word. -/
def colW (ci : IVec (⟨1, ![2000000]⟩ : Shape) 32) (e : Fin 2000000) : BitVec 32 := wrap 1024#32 (ci (ix1 e))

/-- The dense matrix at (k, n): the weights of the entries that land there, summed. -/
def dense (w : (⟨1, ![2000000]⟩ : Shape).Idx → EReal) (ri ci : IVec (⟨1, ![2000000]⟩ : Shape) 32)
    (k : Fin 50000) (n : Fin 1024) : EReal :=
  ∑ e : Fin 2000000, if (rowW ri e).toInt = (k.val : ℤ) ∧ (colW ci e).toInt = (n.val : ℤ) then w (ix1 e) else 0

/-- The row a clamped read of entry `e`'s wrapped row word reaches. -/
def gRow (ri : IVec (⟨1, ![2000000]⟩ : Shape) 32) (e : Fin 2000000) : Fin 50000 :=
  ⟨min (rowW ri e).toInt.toNat 49999, by omega⟩

/-- Row b of x, zero-padded, against column n of the dense matrix, zero-padded. -/
def kernelOut (x : (⟨2, ![64, 50000]⟩ : Shape).Idx → EReal) (w : (⟨1, ![2000000]⟩ : Shape).Idx → EReal)
    (ri ci : IVec (⟨1, ![2000000]⟩ : Shape) 32) (b : Fin 64) (n : Fin 1024) : EReal :=
  ∑ k : Fin 50176, (if h : k.val < 50000 then x (ix2 b ⟨k.val, h⟩) else 0)
    * (if h : k.val < 50000 then dense w ri ci ⟨k.val, h⟩ n else 0)

/-- The entries of column n, each taking x at its row times its weight, summed onto zero. -/
def refOut (x : (⟨2, ![64, 50000]⟩ : Shape).Idx → EReal) (w : (⟨1, ![2000000]⟩ : Shape).Idx → EReal)
    (ri ci : IVec (⟨1, ![2000000]⟩ : Shape) 32) (b : Fin 64) (n : Fin 1024) : EReal :=
  0 + ∑ e ∈ Finset.univ.filter (fun e : Fin 2000000 => (colW ci e).toInt = (n.val : ℤ)),
    x (ix2 b (gRow ri e)) * w (ix1 e)

/-- A row word in [-50000, 50000) wraps into [0, 50000). -/
theorem wrap_range (v : BitVec 32) (h0 : -50000 ≤ v.toInt) (h1 : v.toInt < 50000) :
    0 ≤ (wrap 50000#32 v).toInt ∧ (wrap 50000#32 v).toInt < 50000 := by
  have hz : (0#32 : BitVec 32).toInt = 0 := by decide
  have hN : (50000#32 : BitVec 32).toInt = 50000 := by decide
  unfold wrap Scalar.select
  by_cases hc : IntOp.cmpi .slt v 0#32 = 1
  · rw [if_pos hc]
    have hlt : v.toInt < 0 := by have := IntOp.cmpi_slt.mp hc; rwa [hz] at this
    -- no wrap-around: the sum of the word and the extent is a small non-negative number
    have hs : (IntOp.addi v 50000#32).toInt = v.toInt + 50000 := by
      unfold IntOp.addi
      rw [BitVec.toInt_add, hN]
      exact Int.bmod_eq_of_le (by omega) (by omega)
    omega
  · rw [if_neg hc]
    have hge : ¬ v.toInt < 0 := fun h => hc (IntOp.cmpi_slt.mpr (by rwa [hz]))
    omega

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 50176 columns of terms that vanish from column 50000 on is the sum over the first 50000. -/
theorem sum_pad (f : ℕ → EReal) (h : ∀ k, 50000 ≤ k → f k = 0) :
    ∑ k : Fin 50176, f k.val = ∑ k : Fin 50000, f k.val := by
  rw [Fin.sum_univ_eq_sum_range f 50176, Fin.sum_univ_eq_sum_range f 50000]
  symm
  apply Finset.sum_subset
  · intro a ha
    simp only [Finset.mem_range] at *
    omega
  · intro a _ ha
    apply h
    simp only [Finset.mem_range] at ha
    omega

/-- The two sides agree for real-valued x and w and in-range wrapped row words. -/
theorem kernelOut_eq_refOut (x : (⟨2, ![64, 50000]⟩ : Shape).Idx → EReal) (w : (⟨1, ![2000000]⟩ : Shape).Idx → EReal)
    (ri ci : IVec (⟨1, ![2000000]⟩ : Shape) 32) (b : Fin 64) (n : Fin 1024)
    (hx : ∀ i, ∃ r : ℝ, x i = (r : EReal)) (hw : ∀ i, ∃ r : ℝ, w i = (r : EReal))
    (hr : ∀ e, 0 ≤ (rowW ri e).toInt ∧ (rowW ri e).toInt < 50000) :
    kernelOut x w ri ci b n = refOut x w ri ci b n := by
  classical
  choose xr hxr using hx
  choose wr hwr using hw
  -- an in-range wrapped row word names exactly one row: the one the clamped read reaches
  have hg : ∀ (e : Fin 2000000) (k : Fin 50000), (rowW ri e).toInt = (k.val : ℤ) ↔ k = gRow ri e := by
    intro e k
    obtain ⟨h0, h1⟩ := hr e
    rw [Fin.ext_iff]
    show _ ↔ k.val = min (rowW ri e).toInt.toNat 49999
    omega
  -- the dense matrix's entries are reals
  have hd : ∀ k : Fin 50000, dense w ri ci k n = ((∑ e : Fin 2000000,
      (if (rowW ri e).toInt = (k.val : ℤ) ∧ (colW ci e).toInt = (n.val : ℤ) then wr (ix1 e) else 0) : ℝ) : EReal) := by
    intro k
    unfold dense
    rw [coe_sum]
    refine Finset.sum_congr rfl fun e _ => ?_
    by_cases hp : (rowW ri e).toInt = (k.val : ℤ) ∧ (colW ci e).toInt = (n.val : ℤ)
    · rw [if_pos hp, if_pos hp, hwr]
    · rw [if_neg hp, if_neg hp, EReal.coe_zero]
  -- the padded product is a real: the padding contributes nothing
  have hK : kernelOut x w ri ci b n = ((∑ k : Fin 50000, xr (ix2 b k) * ∑ e : Fin 2000000,
      (if (rowW ri e).toInt = (k.val : ℤ) ∧ (colW ci e).toInt = (n.val : ℤ) then wr (ix1 e) else 0) : ℝ) : EReal) := by
    unfold kernelOut
    have hpad := sum_pad (fun j => (if h : j < 50000 then x (ix2 b ⟨j, h⟩) else 0)
        * (if h : j < 50000 then dense w ri ci ⟨j, h⟩ n else 0))
      (fun j hj => by
        have hn : ¬ j < 50000 := by omega
        simp only [dif_neg hn, mul_zero])
    refine hpad.trans ?_
    rw [coe_sum]
    refine Finset.sum_congr rfl fun k _ => ?_
    simp only [dif_pos k.isLt, Fin.eta]
    rw [hxr, hd, EReal.coe_mul]
  -- the entries' sum is a real
  have hR : refOut x w ri ci b n = ((∑ e ∈ Finset.univ.filter (fun e : Fin 2000000 => (colW ci e).toInt = (n.val : ℤ)),
      xr (ix2 b (gRow ri e)) * wr (ix1 e) : ℝ) : EReal) := by
    unfold refOut
    rw [zero_add, coe_sum]
    refine Finset.sum_congr rfl fun e _ => ?_
    rw [hxr, hwr, EReal.coe_mul]
  rw [hK, hR]
  refine congrArg (fun r : ℝ => (r : EReal)) ?_
  -- over the reals: distribute, exchange the two sums, and collapse the sum over rows to the entry's row
  simp only [Finset.mul_sum, mul_ite, mul_zero]
  rw [Finset.sum_comm, Finset.sum_filter]
  refine Finset.sum_congr rfl fun e _ => ?_
  by_cases hc : (colW ci e).toInt = (n.val : ℤ)
  · simp only [hc, and_true, if_true, hg e]
    rw [Finset.sum_ite_eq' Finset.univ (gRow ri e) (fun k => xr (ix2 b k) * wr (ix1 e))]
    simp only [Finset.mem_univ, if_true]
  · simp only [hc, and_false, if_false, Finset.sum_const_zero]

end Cert.Sparse

end
-- ==== Proof.PreDecode.lean ====
/-
  What the precondition says of the inputs.
-/
import proofs.«415735_j68092411511135_1_alg».proof.Pre_finite_inputs
import proofs.«415735_j68092411511135_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Sparse.Pre

open Idealize.ShloMosaic Idealize.ShloMosaic.ValueIdx

/-- The shape of a scalar has exactly one index. -/
instance subsingleton_scalar_idx : Subsingleton Cert.Pre_finite_inputs.S_.Idx :=
  ⟨fun _ _ => funext fun d => d.elim0⟩

/-- An extended real whose absolute value, the larger of it and its negation, lies strictly below +∞ is a real number. -/
theorem exists_real_of_abs_lt_top (v : EReal) (hv : max v (-v) < ⊤) : ∃ r : ℝ, v = (r : EReal) := by
  induction v using EReal.rec with
  | bot => simp at hv
  | coe r => exact ⟨r, rfl⟩
  | top => simp at hv

/-- The single-precision pattern 0x7F800000 denotes +∞. -/
theorem ofBits_pos_inf : Ideal.ofBits .f32 0x7F800000#32 = (⊤ : EReal) := by
  simp [Ideal.ofBits, Ideal.ieee]

/-- An element whose absolute value compares strictly below the pattern of +∞ is a real number. -/
theorem exists_real_of_cmp_abs (v : EReal)
    (hv : Ideal.cmp .olt (max v (-v)) (Ideal.ofBits .f32 0x7F800000#32) = 1#1) : ∃ r : ℝ, v = (r : EReal) := by
  rw [ofBits_pos_inf] at hv
  refine exists_real_of_abs_lt_top v ?_
  simpa [Ideal.cmp, StableHlo.Predicate.ofBool_eq_one_iff] using hv

/-- The 32-bit word 4294917296 read signed is -50000. -/
theorem toInt_neg_fifty_thousand : (4294917296#32 : BitVec 32).toInt = -50000 := by decide

/-- The 32-bit word 50000 read signed is 50000. -/
theorem toInt_fifty_thousand : (50000#32 : BitVec 32).toInt = 50000 := by decide

/-- Where the precondition holds, x and w are real-valued and every row word lies in [-50000, 50000). -/
theorem decode (x : FVec Ideal Cert.Pre_finite_inputs.S64x50000 .f32) (w : FVec Ideal Cert.Pre_finite_inputs.S2000000 .f32)
    (ri ci : IVec Cert.Pre_finite_inputs.S2000000 32)
    (h : Cert.Pre_finite_inputs.fn (F := Ideal) x w ri ci = fun _ => 1#1) :
    (∀ i, ∃ r : ℝ, x i = (r : EReal)) ∧ (∀ i, ∃ r : ℝ, w i = (r : EReal)) ∧
      (∀ e : Fin 2000000, -50000 ≤ (ri (ix1 e)).toInt ∧ (ri (ix1 e)).toInt < 50000) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun e => ?_⟩
  · -- every element of x passed the test |x| < +∞
    exact exists_real_of_cmp_abs (x i) (Host.reduce_andi_all _ _ _ _ _ h1 i)
  · -- every element of w passed the test |w| < +∞
    exact exists_real_of_cmp_abs (w i) (Host.reduce_andi_all _ _ _ _ _ h2 i)
  · -- every row word passed both signed comparisons against the broadcast bounds
    obtain ⟨ha, hb⟩ := IntOp.andi_eq_one.1 (Host.reduce_andi_all _ _ _ _ _ h3 (ix1 e))
    have ha' : (4294917296#32 : BitVec 32).toInt ≤ (ri (ix1 e)).toInt := IntOp.cmpi_sge.1 ha
    have hb' : (ri (ix1 e)).toInt < (50000#32 : BitVec 32).toInt := IntOp.cmpi_slt.1 hb
    rw [toInt_neg_fifty_thousand] at ha'
    rw [toInt_fifty_thousand] at hb'
    exact ⟨ha', hb'⟩

end Cert.Sparse.Pre

end
-- ==== Proof.KernelArrays.lean ====
/-
  The arrays the matrix-product region finds, and the program's arguments, named at their literal types.
-/
import proofs.«415735_j68092411511135_1_alg».proof.Proof.Gen.KernelIdeal.Frame
import Idealize.ShloMosaic.PureOps.Ideal

noncomputable section

namespace Cert.Sparse.Kernel

open Cert.KernelIdeal Cert.KernelIdeal.Gen Idealize.ShloMosaic Idealize.ShloMosaic.TcCoe Idealize.SL.Sem

variable (m : (ℓ : Loc nD τ sig) → Buf (Elt Ideal) ℓ)

/-- x, zero-padded to 50176 columns, as the region finds it. -/
abbrev xpad (c : Dev nD) : FVec Ideal S64x50176 .bf16 := V (F := Ideal) m c main_v17
/-- The dense matrix, zero-padded to 50176 rows, as the region finds it. -/
abbrev spad (c : Dev nD) : FVec Ideal S50176x1024 .bf16 := V (F := Ideal) m c main_v18
/-- The argument x. -/
abbrev xin (c : Dev nD) : FVec Ideal S64x50000 .f32 := m ((c : Thread nD τ).loc main_arg0)
/-- The argument w. -/
abbrev win (c : Dev nD) : FVec Ideal S2000000 .f32 := m ((c : Thread nD τ).loc main_arg1)
/-- The argument row_idx. -/
abbrev rin (c : Dev nD) : IVec S2000000 32 := m ((c : Thread nD τ).loc main_arg2)
/-- The argument col_idx. -/
abbrev cin (c : Dev nD) : IVec S2000000 32 := m ((c : Thread nD τ).loc main_arg3)

end Cert.Sparse.Kernel

end
-- ==== Proof.LibScatterFlat.lean ====
/-
  A SCATTER THAT ACCUMULATES, WITH A FULL OPERAND POSITION PER UPDATE. Every update `e` carries two signed words, a row
  and a column of the `[M, N]` operand, and one scalar; no window axis is left, so an update touches at most one operand
  element, and a pair of words that is not a position of the operand touches none. The result at `(r, n)` is therefore
  the operand's element there plus the sum of the scalars of exactly those updates whose pair of words is `(r, n)`.
-/
import Idealize.ShloMosaic.PureOps.Ideal
import Idealize.ShloMosaic.Lib.ValueIdx

noncomputable section

open Idealize.ShloMosaic Idealize.ShloMosaic.ValueIdx
open scoped BigOperators

namespace Cert.LibScatterFlat

/-- For any dimension numbers: update `j` lands on the operand index `i` exactly when, on every operand axis, the
    window start plus the window coordinate is `i`'s coordinate. -/
theorem lands_iff_forall {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i hin
    rw [Option.some.injEq]
    constructor
    · intro he a
      have hv : (d.start j idx a + (d.window j a : ℤ)).toNat = (i a).val := congrArg Fin.val (congrFun he a)
      have hnn := (hin a).1
      omega
    · intro hall
      funext a
      refine Fin.ext ?_
      show (d.start j idx a + (d.window j a : ℤ)).toNat = (i a).val
      rw [hall a]
      exact Int.toNat_natCast _
  · rename_i hout
    constructor
    · intro he; cases he
    · intro hall
      refine absurd (fun a => ?_) hout
      have hlt : (i a).val < s.size a := (i a).isLt
      rw [hall a]
      constructor <;> omega

/-- A sum over the indices of a one-axis shape is the sum over that axis's coordinate. -/
theorem sum_rank1 {A : Type*} [AddCommMonoid A] {n : Nat} (f : (⟨1, ![n]⟩ : Shape).Idx → A) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

section Flat
variable {M N E w : Nat}
  (h : ScatterDims.WF (⟨2, ![M, N]⟩ : Shape) (⟨2, ![E, 2]⟩ : Shape) (⟨1, ![E]⟩ : Shape) [] [0, 1] [0, 1] 1)

/-- The dimension numbers: no update window axis, both operand axes inserted, start-index word `0` for operand axis
    `0` and word `1` for operand axis `1`, the index vector on the scatter indices' axis 1. -/
abbrev flatDims : ScatterDims (⟨2, ![M, N]⟩ : Shape) (⟨2, ![E, 2]⟩ : Shape) (⟨1, ![E]⟩ : Shape) := ⟨[], [0, 1], [0, 1], 1, h⟩

/-- Update `j` reads component `c` of its start index at `(j 0, c)` of the scatter indices. -/
theorem flat_siIdx (j : (⟨1, ![E]⟩ : Shape).Idx) (c : Fin (flatDims h).scatterDimsToOperandDims.length) :
    (flatDims h).siIdx j c = ix2 (j 0) (⟨c.val, c.isLt⟩ : Fin 2) := by
  funext b
  refine Fin.ext ?_
  match b with
  | ⟨0, _⟩ => rfl
  | ⟨1, _⟩ => rfl

/-- On operand axis 0 the window of update `j` starts at its word `0`, read signed. -/
theorem flat_start0 (j : (⟨1, ![E]⟩ : Shape).Idx) (idx : IVec (⟨2, ![E, 2]⟩ : Shape) w) (h0) :
    (flatDims h).start j idx ⟨0, h0⟩ = (idx (ix2 (j 0) (0 : Fin 2))).toInt := by
  have hm : (⟨0, h0⟩ : Fin (⟨2, ![M, N]⟩ : Shape).rank) ∈ (flatDims h).scatterDimsToOperandDims := by
    show (0 : Fin 2) ∈ ([0, 1] : List (Fin 2)); decide
  unfold ScatterDims.start
  rw [dif_pos hm, flat_siIdx h j]
  rfl

/-- On operand axis 1 the window of update `j` starts at its word `1`, read signed. -/
theorem flat_start1 (j : (⟨1, ![E]⟩ : Shape).Idx) (idx : IVec (⟨2, ![E, 2]⟩ : Shape) w) (h1) :
    (flatDims h).start j idx ⟨1, h1⟩ = (idx (ix2 (j 0) (1 : Fin 2))).toInt := by
  have hm : (⟨1, h1⟩ : Fin (⟨2, ![M, N]⟩ : Shape).rank) ∈ (flatDims h).scatterDimsToOperandDims := by
    show (1 : Fin 2) ∈ ([0, 1] : List (Fin 2)); decide
  unfold ScatterDims.start
  rw [dif_pos hm, flat_siIdx h j]
  rfl

/-- No operand axis is kept, so the window coordinate is `0` on every operand axis. -/
theorem flat_window (j : (⟨1, ![E]⟩ : Shape).Idx) (a : Fin (⟨2, ![M, N]⟩ : Shape).rank) :
    (flatDims h).window j a = 0 := by
  have hk : (flatDims h).sKept = [] := by
    show (List.finRange 2).filter (· ∉ ([0, 1] : List (Fin 2))) = []; decide
  have hm : a ∉ (flatDims h).sKept := by rw [hk]; exact List.not_mem_nil
  unfold ScatterDims.window
  rw [dif_neg hm]

/-- Update `j` lands on `(r, n)` exactly when its word `0` is `r` and its word `1` is `n`, both read signed. -/
theorem flat_lands_iff (j : (⟨1, ![E]⟩ : Shape).Idx) (idx : IVec (⟨2, ![E, 2]⟩ : Shape) w) (r : Fin M) (n : Fin N) :
    (flatDims h).resultIdx? j idx = some (ix2 r n) ↔
      (idx (ix2 (j 0) (0 : Fin 2))).toInt = (r.val : ℤ) ∧ (idx (ix2 (j 0) (1 : Fin 2))).toInt = (n.val : ℤ) := by
  rw [lands_iff_forall]
  constructor
  · intro hall
    have e0 := hall ⟨0, Nat.zero_lt_two⟩
    have e1 := hall ⟨1, Nat.one_lt_two⟩
    rw [flat_start0, flat_window, Nat.cast_zero, add_zero] at e0
    rw [flat_start1, flat_window, Nat.cast_zero, add_zero] at e1
    exact ⟨e0, e1⟩
  · rintro ⟨hr, hn⟩ a
    match a with
    | ⟨0, h0⟩ =>
      rw [flat_start0, flat_window, Nat.cast_zero, add_zero]; exact hr
    | ⟨1, h1⟩ =>
      rw [flat_start1, flat_window, Nat.cast_zero, add_zero]; exact hn

/-- The scatter at `(r, n)`, over the named dimension numbers. -/
theorem flat_sum (x : (⟨2, ![M, N]⟩ : Shape).Idx → EReal) (idx : IVec (⟨2, ![E, 2]⟩ : Shape) w)
    (upd : (⟨1, ![E]⟩ : Shape).Idx → EReal) (r : Fin M) (n : Fin N) :
    Ideal.hostScatterAdd (flatDims h) x idx upd (ix2 r n)
      = x (ix2 r n) + ∑ e : Fin E,
          if (idx (ix2 e (0 : Fin 2))).toInt = (r.val : ℤ) ∧ (idx (ix2 e (1 : Fin 2))).toInt = (n.val : ℤ) then upd (ix1 e) else 0 := by
  unfold Ideal.hostScatterAdd
  congr 1
  rw [Finset.sum_filter, sum_rank1]
  refine Finset.sum_congr rfl fun e _ => ?_
  have hl : (flatDims h).resultIdx? (ix1 e) idx = some (ix2 r n) ↔
      ((idx (ix2 e (0 : Fin 2))).toInt = (r.val : ℤ) ∧ (idx (ix2 e (1 : Fin 2))).toInt = (n.val : ℤ)) :=
    flat_lands_iff h (ix1 e) idx r n
  simp only [hl]
end Flat

/-- An accumulating scatter with two index words per update (operand `[M, N]`, scatter indices `[E, 2]` with the
    index vector last, updates `[E]`, no window axis), read at `(r, n)`: the operand's element plus the sum over the
    updates `e` of the update element where word `0`, read signed, is `r` and word `1`, read signed, is `n`, and
    `0` elsewhere. -/
theorem scatterAdd_flat {M N E w : Nat}
    (h : ScatterDims.WF (⟨2, ![M, N]⟩ : Shape) (⟨2, ![E, 2]⟩ : Shape) (⟨1, ![E]⟩ : Shape) [] [0, 1] [0, 1] 1)
    (x : (⟨2, ![M, N]⟩ : Shape).Idx → EReal) (idx : IVec (⟨2, ![E, 2]⟩ : Shape) w)
    (upd : (⟨1, ![E]⟩ : Shape).Idx → EReal) (r : Fin M) (n : Fin N) :
    Ideal.hostScatterAdd (⟨[], [0, 1], [0, 1], 1, h⟩ : ScatterDims (⟨2, ![M, N]⟩ : Shape) (⟨2, ![E, 2]⟩ : Shape) (⟨1, ![E]⟩ : Shape)) x idx upd (ix2 r n)
      = x (ix2 r n) + ∑ e : Fin E,
          if (idx (ix2 e (0 : Fin 2))).toInt = (r.val : ℤ) ∧ (idx (ix2 e (1 : Fin 2))).toInt = (n.val : ℤ) then upd (ix1 e) else 0 := by
  exact flat_sum h x idx upd r n

end Cert.LibScatterFlat

end
-- ==== Proof.KernelHost.lean ====
/-
  What the host operations before the region leave in the two arrays the region reads.

  Each array is first named as a term of the arguments (x padded; the weights accumulated onto a zero matrix at the
  wrapped index pairs, then padded), and that term is then read at an index.
-/
import proofs.«415735_j68092411511135_1_alg».proof.Proof.KernelArrays
import proofs.«415735_j68092411511135_1_alg».proof.Proof.Spec
import proofs.«415735_j68092411511135_1_alg».proof.Proof.LibScatterFlat
import Idealize.ShloMosaic.Lib.Pipeline.Value
import Idealize.ShloMosaic.Lib.StableHlo.Run
import Idealize.ShloMosaic.Lib.KernelVsHost

noncomputable section

namespace Cert.Sparse.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The terms -/

/-- x padded to 50176 columns by the converted integer zero, then narrowed. -/
def xpadT (x : FVec Ideal S64x50000 .f32) : FVec Ideal S64x50176 .bf16 :=
  truncf .bf16 (pad S64x50176 ![0, 0] ![0, 176] ![0, 0] x (sitofp (F := Ideal) .f32 (constantI S_ 32 0#32))
    Facts₀.pads_S64x50000_S64x50176_000_01760 Facts₀.h_S_) Facts₀.bitsLt_bf16_f32

/-- An index vector with the extent added where it is negative. -/
def wrapV (N : BitVec 32) (v : IVec S2000000 32) : IVec S2000000 32 :=
  select (cmpi .slt v (broadcastInDim S2000000 ![] Facts₀.bcast_S_S2000000 (constantI S_ 32 0#32)))
    (addi v (broadcastInDim S2000000 ![] Facts₀.bcast_S_S2000000 (constantI S_ 32 N))) v

/-- The wrapped row and column words side by side: entry e's pair is row e of a [2000000, 2] array. -/
def idxT (ri ci : IVec S2000000 32) : IVec S2000000x2 32 :=
  concatenate S2000000x2 1
    [⟨S2000000x1, broadcastInDim S2000000x1 ![0] Facts₀.bcast_S2000000_S2000000x1_0 (wrapV 50000#32 ri)⟩,
     ⟨S2000000x1, broadcastInDim S2000000x1 ![0] Facts₀.bcast_S2000000_S2000000x1_0 (wrapV 1024#32 ci)⟩]
    Facts₀.concatenates_S2000000x1_S2000000x1_S2000000x2_d1

/-- The weights accumulated onto a zero [50000, 1024] matrix at the wrapped pairs. -/
def scatT (w : FVec Ideal S2000000 .f32) (ri ci : IVec S2000000 32) : FVec Ideal S50000x1024 .f32 :=
  Host.scatterAdd scatter_S50000x1024_S2000000x2_S2000000_n_01_01_1
    (broadcastInDim S50000x1024 ![] Facts₀.bcast_S_S50000x1024 (constant (F := Ideal) S_ .f32 0x00000000#32)) (idxT ri ci) w

/-- A [50000, 1024] matrix padded to 50176 rows by the converted integer zero, then narrowed. -/
def padRows (z : FVec Ideal S50000x1024 .f32) : FVec Ideal S50176x1024 .bf16 :=
  truncf .bf16 (pad S50176x1024 ![0, 0] ![176, 0] ![0, 0] z (sitofp (F := Ideal) .f32 (constantI S_ 32 0#32))
    Facts₀.pads_S50000x1024_S50176x1024_01760_000 Facts₀.h_S_) Facts₀.bitsLt_bf16_f32

/-! ## The arrays are the terms -/

/-- The padded x's array holds x, padded and narrowed. -/
theorem xpad_eq (c : Dev nD) : (xpad m c : S64x50176.Idx → EReal) = xpadT (xin m c) := by
  dsimp only [xpad, xin, Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- Two stretches of operations run one after the other: the second runs on what the first leaves. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op ops ih => exact ih _

/-- The later stretches, run on any contents W, leave in the padded matrix's array W's accumulated matrix, padded and narrowed. -/
theorem tail_v18 (W : Valuation τ sig (Elt Ideal)) :
    (StableHlo.after (hostOps0_1 ++ (hostOps0_2 ++ (hostOps0_3 ++ (hostOps0_4 ++ [])))) W (Proc.devRef .tc main_v18) : S50176x1024.Idx → EReal)
      = padRows (W (Proc.devRef .tc main_v14)) := by
  simp only [Gen.hostOps0_1, Gen.hostOps0_2, Gen.hostOps0_3, Gen.hostOps0_4, List.append_nil, List.cons_append, List.nil_append]
  after_results
  rfl

set_option maxHeartbeats 1600000 in
/-- The first stretch leaves the accumulated matrix in its array. -/
theorem head_v14 (c : Dev nD) :
    (StableHlo.after hostOps0 (fun b => m (c, b)) (Proc.devRef .tc main_v14) : S50000x1024.Idx → EReal)
      = scatT (win m c) (rin m c) (cin m c) := by
  dsimp only [win, rin, cin]
  simp only [Gen.hostOps0]
  after_results
  unfold scatT idxT wrapV
  rfl

/-- The padded matrix's array holds the accumulated matrix, padded and narrowed. -/
theorem spad_eq (c : Dev nD) : (spad m c : S50176x1024.Idx → EReal) = padRows (scatT (win m c) (rin m c) (cin m c)) := by
  dsimp only [spad, Gen.V]
  simp only [List.flatten_cons, List.flatten_nil]
  rw [after_append]
  exact (tail_v18 _).trans (congrArg padRows (head_v14 m c))

/-! ## The terms at an index -/

/-- The padded x read at (b, k): x there below column 50000, zero from there on. -/
theorem xpadT_apply (x : FVec Ideal S64x50000 .f32) (b : Fin 64) (k : Fin 50176) :
    xpadT x (ix2 b k) = if h : k.val < 50000 then x (ix2 b ⟨k.val, h⟩) else 0 := by
  show pad S64x50176 ![0, 0] ![0, 176] ![0, 0] x (sitofp (F := Ideal) .f32 (constantI S_ 32 0#32))
    Facts₀.pads_S64x50000_S64x50176_000_01760 Facts₀.h_S_ (ix2 b k) = _
  by_cases h : k.val < 50000
  · rw [dif_pos h]
    refine pad_apply_of_inside _ _ _ x _ _ _ (ix2 b k) (ix2 b ⟨k.val, h⟩) fun a => ?_
    match a with
    | ⟨0, _⟩ => simp
    | ⟨1, _⟩ => simp
  · rw [dif_neg h]
    refine (pad_apply_of_not_inside _ _ _ x _ _ _ (ix2 b k) (1 : Fin 2) ?_).trans sitofp_zero
    intro hc
    have h3 : (k.val - 0) / (0 + 1) < 50000 := hc.2.2
    omega

/-- The padded rows read at (k, n): the matrix there below row 50000, zero from there on. -/
theorem padRows_apply (z : FVec Ideal S50000x1024 .f32) (k : Fin 50176) (n : Fin 1024) :
    padRows z (ix2 k n) = if h : k.val < 50000 then z (ix2 ⟨k.val, h⟩ n) else 0 := by
  show pad S50176x1024 ![0, 0] ![176, 0] ![0, 0] z (sitofp (F := Ideal) .f32 (constantI S_ 32 0#32))
    Facts₀.pads_S50000x1024_S50176x1024_01760_000 Facts₀.h_S_ (ix2 k n) = _
  by_cases h : k.val < 50000
  · rw [dif_pos h]
    refine pad_apply_of_inside _ _ _ z _ _ _ (ix2 k n) (ix2 ⟨k.val, h⟩ n) fun a => ?_
    match a with
    | ⟨0, _⟩ => simp
    | ⟨1, _⟩ => simp
  · rw [dif_neg h]
    refine (pad_apply_of_not_inside _ _ _ z _ _ _ (ix2 k n) (0 : Fin 2) ?_).trans sitofp_zero
    intro hc
    have h3 : (k.val - 0) / (0 + 1) < 50000 := hc.2.2
    omega

/-- The wrapped vector at entry e is the wrapped word. -/
theorem wrapV_apply (N : BitVec 32) (v : IVec S2000000 32) (e : Fin 2000000) :
    wrapV N v (ix1 e) = Cert.Sparse.wrap N (v (ix1 e)) := rfl

/-- A vector laid out as a one-column matrix, read at row e, is the vector at e. -/
theorem col_apply (v : IVec S2000000 32) (e : Fin 2000000) :
    broadcastInDim S2000000x1 ![0] Facts₀.bcast_S2000000_S2000000x1_0 v (ix2 e (0 : Fin 1)) = v (ix1 e) := by
  refine broadcastInDim_apply _ _ _ (ix2 e (0 : Fin 1)) (ix1 e) fun a => ?_
  match a with
  | ⟨0, _⟩ =>
    show e.val = if (2000000 : ℕ) = 1 then 0 else e.val
    rw [if_neg (by decide)]

/-- Word 0 of entry e's pair is its wrapped row word. -/
theorem idxT_row (ri ci : IVec S2000000 32) (e : Fin 2000000) :
    idxT ri ci (ix2 e (0 : Fin 2)) = Cert.Sparse.rowW ri e := by
  unfold idxT
  refine (concatenate_pair_apply_left (t := S2000000x2) (s₁ := S2000000x1) (s₂ := S2000000x1) (1 : Fin 2) _ _
    Facts₀.concatenates_S2000000x1_S2000000x1_S2000000x2_d1
    (ix2 e (0 : Fin 2)) rfl (ix2 e (0 : Fin 1)) fun b => ?_).trans ((col_apply _ e).trans (wrapV_apply _ _ e))
  match b with
  | ⟨0, _⟩ => rfl
  | ⟨1, _⟩ => rfl

/-- Word 1 of entry e's pair is its wrapped column word. -/
theorem idxT_col (ri ci : IVec S2000000 32) (e : Fin 2000000) :
    idxT ri ci (ix2 e (1 : Fin 2)) = Cert.Sparse.colW ci e := by
  unfold idxT
  refine (concatenate_pair_apply_right (t := S2000000x2) (s₁ := S2000000x1) (s₂ := S2000000x1) (1 : Fin 2) _ _
    Facts₀.concatenates_S2000000x1_S2000000x1_S2000000x2_d1
    (ix2 e (1 : Fin 2)) rfl rfl (ix2 e (0 : Fin 1)) (fun b hb => ?_) rfl).trans ((col_apply _ e).trans (wrapV_apply _ _ e))
  match b with
  | ⟨0, _⟩ => rfl
  | ⟨1, _⟩ => exact absurd rfl hb

/-- The broadcast zero constant reads zero everywhere. -/
theorem zeros_apply (k : Fin 50000) (n : Fin 1024) :
    broadcastInDim S50000x1024 ![] Facts₀.bcast_S_S50000x1024 (constant (F := Ideal) S_ .f32 0x00000000#32) (ix2 k n) = (0 : EReal) :=
  (broadcastInDim_apply _ _ _ (ix2 k n) ix0 (fun a => a.elim0)).trans ((constant_apply _ _).trans Ideal.ofBits_zero_f32)

/-- The accumulation is the exact one: every element plus the sum of the weights landing on it. -/
theorem scatT_eq (w : FVec Ideal S2000000 .f32) (ri ci : IVec S2000000 32) :
    scatT w ri ci = Ideal.hostScatterAdd scatter_S50000x1024_S2000000x2_S2000000_n_01_01_1
      (broadcastInDim S50000x1024 ![] Facts₀.bcast_S_S50000x1024 (constant (F := Ideal) S_ .f32 0x00000000#32)) (idxT ri ci) w :=
  Ideal.hostScatterAdd_def scatter_S50000x1024_S2000000x2_S2000000_n_01_01_1 .single
      (broadcastInDim S50000x1024 ![] Facts₀.bcast_S_S50000x1024 (constant (F := Ideal) S_ .f32 0x00000000#32)) (idxT ri ci) w

/-- The accumulated matrix at (k, n): the weights of the entries whose wrapped pair is (k, n), summed. -/
theorem scatT_apply (w : FVec Ideal S2000000 .f32) (ri ci : IVec S2000000 32) (k : Fin 50000) (n : Fin 1024) :
    scatT w ri ci (ix2 k n) = Cert.Sparse.dense w ri ci k n := by
  refine (congrFun (scatT_eq w ri ci) (ix2 k n)).trans ?_
  refine (Cert.LibScatterFlat.scatterAdd_flat (M := 50000) (N := 1024) (E := 2000000) (w := 32)
    Facts₀.scatter_S50000x1024_S2000000x2_S2000000_n_01_01_1_wf
    (broadcastInDim S50000x1024 ![] Facts₀.bcast_S_S50000x1024 (constant (F := Ideal) S_ .f32 0x00000000#32)) (idxT ri ci) w k n).trans ?_
  rw [zeros_apply, zero_add]
  show _ = ∑ e : Fin 2000000, if (Cert.Sparse.rowW ri e).toInt = (k.val : ℤ) ∧ (Cert.Sparse.colW ci e).toInt = (n.val : ℤ)
    then w (ix1 e) else 0
  refine Finset.sum_congr rfl fun e _ => ?_
  rw [idxT_row, idxT_col]

/-! ## The two arrays at an index -/

/-- The padded x at (b, k): x there for k < 50000, zero in the padding. -/
theorem xpad_apply (c : Dev nD) (b : Fin 64) (k : Fin 50176) :
    xpad m c (ix2 b k) = if h : k.val < 50000 then xin m c (ix2 b ⟨k.val, h⟩) else 0 :=
  (congrFun (xpad_eq m c) (ix2 b k)).trans (xpadT_apply (xin m c) b k)

/-- The padded dense matrix at (k, n): the entries' weights landing on (k, n) summed for k < 50000, zero in the padding. -/
theorem spad_apply (c : Dev nD) (k : Fin 50176) (n : Fin 1024) :
    spad m c (ix2 k n) = if h : k.val < 50000 then Cert.Sparse.dense (win m c) (rin m c) (cin m c) ⟨k.val, h⟩ n else 0 := by
  refine (congrFun (spad_eq m c) (ix2 k n)).trans ((padRows_apply _ k n).trans ?_)
  by_cases h : k.val < 50000
  · rw [dif_pos h, dif_pos h]
    exact scatT_apply _ _ _ ⟨k.val, h⟩ n
  · rw [dif_neg h, dif_neg h]

end Cert.Sparse.Kernel

end
-- ==== Proof.LibDotCols.lean ====
/-
  A product of two matrices that contracts the left operand's LAST axis with the right operand's FIRST, read at an entry.

  For a left operand of shape [R, K], a right operand of shape [K, N] and dimension numbers
  "contract axis 1 with axis 0, free axes 0 and 1, no batch axes", the contraction shape has the one axis of extent
  K, the left operand is read at (p, k) and the right at (k, n); so over the extended reals the product accumulated
  into an accumulator `acc` is, at (p, n), `acc (p, n) + ∑ k, l (p, k) * r (k, n)`: row p of the left operand against
  column n of the right.  Stated for ANY such record of dimension numbers, whatever its name, from the six equations
  that say which lists it holds (each `rfl` for a printed record).
-/
import Idealize.ShloMosaic.PureOps.Ideal.Laws
import Idealize.ShloMosaic.Lib.ValueIdx

noncomputable section

namespace Cert.LibDotCols

open Idealize.ShloMosaic Idealize.ShloMosaic.ValueIdx

variable {R K N : Nat} (D : DotDims ⟨2, ![R, K]⟩ ⟨2, ![K, N]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [1]) : D.contr.rank = 1 := by
  rw [D.rank_contr, hlc]; rfl

/-- Its extent is K, the left operand's second extent. -/
theorem contr_size (hlc : D.lhsContracting = [1]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the result's row. -/
theorem lhs_row (hln : D.lhsNonContracting = [0]) (hlb : D.lhsBatch = [])
    (i : (⟨2, ![R, N]⟩ : Shape).Idx) (q : D.contr.Idx) : (D.lhsIdx i q 0).val = (i 0).val := by
  unfold DotDims.lhsIdx
  rw [dif_neg (show ¬(0 : Fin (⟨2, ![R, K]⟩ : Shape).rank) ∈ D.lhsBatch by rw [hlb]; exact List.not_mem_nil),
    dif_pos (show (0 : Fin (⟨2, ![R, K]⟩ : Shape).rank) ∈ D.lhsNonContracting by rw [hln]; exact List.mem_singleton.mpr rfl)]
  simp only [Fin.val_cast]
  exact coord_congr i _ 0 _ (show 0 < 2 from Nat.two_pos) (by simp [hlb, hln])

/-- The left operand's column is the contraction coordinate. -/
theorem lhs_col (hlc : D.lhsContracting = [1]) (i : (⟨2, ![R, N]⟩ : Shape).Idx) (q : D.contr.Idx) :
    (D.lhsIdx i q 1).val = (q ⟨0, by rw [contr_rank D hlc]; exact Nat.one_pos⟩).val :=
  D.lhsIdx_val_of_single hlc i q

/-- The right operand's row is the contraction coordinate. -/
theorem rhs_row (hlc : D.lhsContracting = [1]) (hrc : D.rhsContracting = [0]) (i : (⟨2, ![R, N]⟩ : Shape).Idx)
    (q : D.contr.Idx) : (D.rhsIdx i q 0).val = (q ⟨0, by rw [contr_rank D hlc]; exact Nat.one_pos⟩).val :=
  D.rhsIdx_val_of_single hrc i q

/-- The right operand's column is the result's column. -/
theorem rhs_col (hln : D.lhsNonContracting = [0]) (hrn : D.rhsNonContracting = [1]) (hlb : D.lhsBatch = [])
    (hrb : D.rhsBatch = []) (i : (⟨2, ![R, N]⟩ : Shape).Idx) (q : D.contr.Idx) : (D.rhsIdx i q 1).val = (i 1).val := by
  unfold DotDims.rhsIdx
  rw [dif_neg (show ¬(1 : Fin (⟨2, ![K, N]⟩ : Shape).rank) ∈ D.rhsBatch by rw [hrb]; exact List.not_mem_nil),
    dif_pos (show (1 : Fin (⟨2, ![K, N]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- THE PRODUCT AT AN ENTRY: at (p, n) it is the accumulator's entry plus row p of the left operand against column n
    of the right. -/
theorem matmul_cols {φ₁ φ₂ : FTy} (prec : Option ContractPrecision)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![R, K]⟩ φ₁) (r : FVec Ideal ⟨2, ![K, N]⟩ φ₂) (acc : FVec Ideal ⟨2, ![R, N]⟩ .f32) (p : Fin R) (n : Fin N) :
    FloatOps.matmul D prec l r acc (ix2 p n) = acc (ix2 p n) + ∑ k : Fin K, l (ix2 p k) * r (ix2 k n) := by
  rw [Ideal.matmul_apply,
    ← Equiv.sum_comp (contrEquiv1 D K (contr_rank D hlc) (contr_size D hlc)).symm]
  refine congrArg (acc (ix2 p n) + ·) (Finset.sum_congr rfl fun k _ => ?_)
  have hk := contrEquiv1_symm_val D K (contr_rank D hlc) (contr_size D hlc) k
  have el : D.lhsIdx (ix2 p n) ((contrEquiv1 D K (contr_rank D hlc) (contr_size D hlc)).symm k) = ix2 p k :=
    funext fun a => Fin.ext (by
      match a with
      | ⟨0, _⟩ => exact lhs_row D hln hlb _ _
      | ⟨1, _⟩ => exact (lhs_col D hlc _ _).trans hk)
  have er : D.rhsIdx (ix2 p n) ((contrEquiv1 D K (contr_rank D hlc) (contr_size D hlc)).symm k) = ix2 k n :=
    funext fun a => Fin.ext (by
      match a with
      | ⟨0, _⟩ => exact (rhs_row D hlc hrc _ _).trans hk
      | ⟨1, _⟩ => exact rhs_col D hln hrn hlb hrb _ _)
  rw [el, er]

end Cert.LibDotCols

end
-- ==== Proof.KernelFold.lean ====
/-
  The region's result array at (b, n): row b of the padded x against column n of the padded dense matrix.
-/
import proofs.«415735_j68092411511135_1_alg».proof.Proof.Gen.KernelIdeal.Value
import proofs.«415735_j68092411511135_1_alg».proof.Proof.KernelArrays
import proofs.«415735_j68092411511135_1_alg».proof.Proof.LibDotCols
import Mathlib.Algebra.BigOperators.Fin
import Mathlib.Logic.Equiv.Fin.Basic

noncomputable section

namespace Cert.Sparse.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## One contraction tile's arithmetic at an entry -/

/-- The block the first contraction tile starts from is zero at every entry. -/
theorem pay1_apply (p : Fin 64) (q : Fin 512) : k0_pay1 (F := Ideal) (ix2 p q) = 0 := by
  unfold k0_pay1
  exact Ideal.ofBits_zero_f32

/-- A contraction tile's step at an entry: what the block held there plus the tile's row p of the left block against
    column q of the right block. -/
theorem pay2_apply (acc : FVec Ideal S64x512 .f32) (x0 : FVec Ideal S64x12544 .bf16) (x1 : FVec Ideal S12544x512 .bf16)
    (p : Fin 64) (q : Fin 512) :
    k0_pay2 (F := Ideal) acc x0 x1 (ix2 p q) = acc (ix2 p q) + ∑ k : Fin 12544, x0 (ix2 p k) * x1 (ix2 k q) := by
  unfold k0_pay2
  simp only [shapeCast_self]
  refine (addf_apply _ _ (ix2 p q)).trans ?_
  refine congrArg (acc (ix2 p q) + ·) ?_
  refine (Cert.LibDotCols.matmul_cols dot_S64x12544_S12544x512_S64x512_1_0_0_1_n_n none rfl rfl rfl rfl rfl rfl
    x0 x1 (constant (F := Ideal) S64x512 .f32 0x00000000#32) p q).trans ?_
  rw [constant_apply, Ideal.ofBits_zero_f32, zero_add]

/-! ## The input blocks, read through the padded arrays -/

/-- The index maps of the two input windows, decided over the grid: the left window's block is (0, t % 4), the
    right window's is (t % 4, t / 4). -/
theorem idx_facts01 : ∀ t : Fin cfg0.N, win0_0.index t (0 : Fin 2) = 0 ∧ win0_0.index t (1 : Fin 2) = t.val % 4
    ∧ win0_1.index t (0 : Fin 2) = t.val % 4 ∧ win0_1.index t (1 : Fin 2) = t.val / 4 :=
  (by decide +kernel : ∀ t : Fin grid0.N, win0_0.index t (0 : Fin 2) = 0 ∧ win0_0.index t (1 : Fin 2) = t.val % 4
    ∧ win0_1.index t (0 : Fin 2) = t.val % 4 ∧ win0_1.index t (1 : Fin 2) = t.val / 4)

/-- The left operand's block at point t, at its literal type. -/
abbrev xblk (c : Dev nD) (t : Fin cfg0.N) : FVec Ideal S64x12544 .bf16 := iblk (F := Ideal) m c 0 t
/-- The right operand's block at point t, at its literal type. -/
abbrev sblk (c : Dev nD) (t : Fin cfg0.N) : FVec Ideal S12544x512 .bf16 := iblk (F := Ideal) m c 1 t

/-- Entry (p, k) of the left block at point t is entry (p, 12544 (t % 4) + k) of the padded x. -/
theorem xblk_apply (c : Dev nD) (t : Fin cfg0.N) (p : Fin 64) (k : Fin 12544) :
    xblk m c t (ix2 p k) = xpad m c (ix2 p ⟨12544 * (t.val % 4) + k.val, by have := k.isLt; omega⟩) := by
  obtain ⟨e0, e1, -, -⟩ := idx_facts01 t
  show V (F := Ideal) m c main_v17 (((cfg0.win 0).blk t).view.emb (ix2 p k)) = V (F := Ideal) m c main_v17 _
  refine congrArg (V (F := Ideal) m c main_v17) ?_
  funext a; apply Fin.ext
  match a with
  | ⟨0, _⟩ => show win0_0.index t (0 : Fin 2) * 64 + 1 * p.val = p.val; rw [e0]; omega
  | ⟨1, _⟩ => show win0_0.index t (1 : Fin 2) * 12544 + 1 * k.val = 12544 * (t.val % 4) + k.val; rw [e1]; omega

/-- Entry (k, q) of the right block at point t is entry (12544 (t % 4) + k, 512 (t / 4) + q) of the padded dense matrix. -/
theorem sblk_apply (c : Dev nD) (t : Fin cfg0.N) (k : Fin 12544) (q : Fin 512) :
    sblk m c t (ix2 k q) = spad m c (ix2 ⟨12544 * (t.val % 4) + k.val, by have := k.isLt; omega⟩
      ⟨512 * (t.val / 4) + q.val, by have := lt_of_lt_of_eq t.isLt (show cfg0.N = 8 from N_0); have := q.isLt; omega⟩) := by
  obtain ⟨-, -, e0, e1⟩ := idx_facts01 t
  show V (F := Ideal) m c main_v18 (((cfg0.win 1).blk t).view.emb (ix2 k q)) = V (F := Ideal) m c main_v18 _
  refine congrArg (V (F := Ideal) m c main_v18) ?_
  funext a; apply Fin.ext
  match a with
  | ⟨0, _⟩ => show win0_1.index t (0 : Fin 2) * 12544 + 1 * k.val = 12544 * (t.val % 4) + k.val; rw [e0]; omega
  | ⟨1, _⟩ => show win0_1.index t (1 : Fin 2) * 512 + 1 * q.val = 512 * (t.val / 4) + q.val; rw [e1]; omega

/-! ## The four contraction tiles as one sum -/

/-- A sum over 50176 = 4 · 12544 indices, taken tile by tile. -/
theorem sum_tiles (f : Fin 50176 → EReal) :
    ∑ k : Fin 50176, f k
      = ∑ j : Fin 4, ∑ k : Fin 12544, f ⟨12544 * j.val + k.val, by have := j.isLt; have := k.isLt; omega⟩ := by
  rw [← Equiv.sum_comp (finProdFinEquiv : Fin 4 × Fin 12544 ≃ Fin (4 * 12544)) f, Fintype.sum_prod_type]
  refine Finset.sum_congr rfl fun j _ => Finset.sum_congr rfl fun k _ => congrArg f (Fin.ext ?_)
  show k.val + 12544 * j.val = 12544 * j.val + k.val
  omega

/-- A point's tile product at an entry, through the padded arrays: at a point t with t % 4 = j and t / 4 = r it is
    the part of row p against column 512 r + q that lies in contraction tile j. -/
theorem tile_apply (c : Dev nD) (t : Fin cfg0.N) (j r : ℕ) (hj : t.val % 4 = j) (hr : t.val / 4 = r)
    (p : Fin 64) (q : Fin 512) (hjb : j < 4) (hn : 512 * r + q.val < 1024) :
    ∑ k : Fin 12544, xblk m c t (ix2 p k) * sblk m c t (ix2 k q)
      = ∑ k : Fin 12544, xpad m c (ix2 p ⟨12544 * j + k.val, by have := k.isLt; omega⟩)
          * spad m c (ix2 ⟨12544 * j + k.val, by have := k.isLt; omega⟩ ⟨512 * r + q.val, hn⟩) := by
  subst hj; subst hr
  exact Finset.sum_congr rfl fun k _ => by rw [xblk_apply, sblk_apply]

/-- The fold of the four points of run r, at an entry: row p of the padded x against column 512 r + q of the padded
    dense matrix, the whole contraction axis. -/
theorem fold4_apply (c : Dev nD) (b0 r : ℕ) (hb : b0 = 4 * r) (h : b0 + 3 < cfg0.N) (p : Fin 64) (q : Fin 512)
    (hn : 512 * r + q.val < 1024) :
    Pipeline.accAt (Value.reset2 (F := Ideal) m c) (Value.step2 (F := Ideal) m c) b0 3 h (ix2 p q)
      = ∑ k : Fin 50176, xpad m c (ix2 p k) * spad m c (ix2 k ⟨512 * r + q.val, hn⟩) := by
  subst hb
  have hN : cfg0.N = 8 := N_0
  have h0 : 4 * r < cfg0.N := by omega
  have h1 : 4 * r + 1 < cfg0.N := by omega
  have h2 : 4 * r + 2 < cfg0.N := by omega
  show k0_pay2 (F := Ideal) (k0_pay2 (F := Ideal) (k0_pay2 (F := Ideal) (k0_pay2 (F := Ideal) (k0_pay1 (F := Ideal))
      (xblk m c ⟨4 * r, h0⟩) (sblk m c ⟨4 * r, h0⟩))
      (xblk m c ⟨4 * r + 1, h1⟩) (sblk m c ⟨4 * r + 1, h1⟩))
      (xblk m c ⟨4 * r + 2, h2⟩) (sblk m c ⟨4 * r + 2, h2⟩))
      (xblk m c ⟨4 * r + 3, h⟩) (sblk m c ⟨4 * r + 3, h⟩) (ix2 p q) = _
  rw [pay2_apply, pay2_apply, pay2_apply, pay2_apply, pay1_apply, zero_add,
    tile_apply m c ⟨4 * r, h0⟩ 0 r (by show (4 * r) % 4 = 0; omega) (by show (4 * r) / 4 = r; omega) p q (by omega) hn,
    tile_apply m c ⟨4 * r + 1, h1⟩ 1 r (by show (4 * r + 1) % 4 = 1; omega) (by show (4 * r + 1) / 4 = r; omega) p q (by omega) hn,
    tile_apply m c ⟨4 * r + 2, h2⟩ 2 r (by show (4 * r + 2) % 4 = 2; omega) (by show (4 * r + 2) / 4 = r; omega) p q (by omega) hn,
    tile_apply m c ⟨4 * r + 3, h⟩ 3 r (by show (4 * r + 3) % 4 = 3; omega) (by show (4 * r + 3) / 4 = r; omega) p q (by omega) hn,
    sum_tiles, Fin.sum_univ_four]
  rfl

/-! ## The result array -/

/-- The result array the value leg names, read at (b, n). -/
theorem G2_apply (c : Dev nD) (b : Fin 64) (n : Fin 1024) :
    Cert.KernelIdeal.Value.G2 (F := Ideal) m c (ix2 b n) = ∑ k : Fin 50176, xpad m c (ix2 b k) * spad m c (ix2 k n) := by
  have hN : cfg0.N = 8 := N_0
  have hb : b.val < 64 := b.isLt
  have hn : n.val < 1024 := n.isLt
  have hr : Value.run2Of (ix2 b n) = n.val / 512 := by
    show 2 * (b.val / 64 - 0) + 1 * (n.val / 512 - 0) = n.val / 512
    omega
  have hl : Value.loc2Of (ix2 b n) = ix2 b ⟨n.val % 512, Nat.mod_lt _ (by decide)⟩ := by
    funext a; apply Fin.ext
    match a with
    | ⟨0, _⟩ => show b.val % 64 = b.val; omega
    | ⟨1, _⟩ => show n.val % 512 = n.val % 512; rfl
  unfold Value.G2
  rw [dif_pos (show 4 * Value.run2Of (ix2 b n) + 3 < cfg0.N by rw [hr]; omega), hl]
  refine (fold4_apply m c (4 * Value.run2Of (ix2 b n)) (n.val / 512) (by rw [hr]) _ b ⟨n.val % 512, Nat.mod_lt _ (by decide)⟩
    (by show 512 * (n.val / 512) + n.val % 512 < 1024; omega)).trans ?_
  refine Finset.sum_congr rfl fun k _ => congrArg (fun j => xpad m c (ix2 b k) * spad m c (ix2 k j)) (Fin.ext ?_)
  show 512 * (n.val / 512) + n.val % 512 = n.val
  omega

end Cert.Sparse.Kernel

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.RefRead.lean ====
/-
  The reference's result at (b, n).

  The reference gathers the columns of x named by the wrapped row words (a clamped read), multiplies column e by
  the weight of entry e, and adds column e of the product onto column (wrapped column word of e) of a zero matrix.
  Read at (b, n) that is zero plus the sum, over the entries whose wrapped column word is n, of x at (b, the
  clamped row of the entry) times the entry's weight.
-/
import proofs.«415735_j68092411511135_1_alg».proof.Proof.Gen.ReferenceIdeal.Read
import proofs.«415735_j68092411511135_1_alg».proof.Proof.Spec
import proofs.«415735_j68092411511135_1_alg».proof.Proof.LibScatterSum
import Idealize.ShloMosaic.PureOps.Ideal.Laws

noncomputable section

namespace Cert.Sparse.Ref

open Cert.ReferenceIdeal Cert.ReferenceIdeal.Gen Idealize.ShloMosaic Idealize.ShloMosaic.TcCoe Idealize.SL.Sem
open Idealize.ShloMosaic.ValueIdx

/-! ## A gather of whole columns, read at an index

Operand `[C, N]`, one start-index word per result column in `[E, 1]`, result `[C, E]`: result axis 0 is the offset
axis and runs over the operand's rows, operand axis 1 is collapsed (slice size 1) and is the one the start index
names. Result element `(c, e)` is the operand at row `c` and at the column word of `e`, read signed and clamped into
`[0, N − 1]`. -/

section GatherCols
variable {α : Type} {C N E w : Nat}
  (wf : GatherDims.WF (⟨2, ![C, N]⟩ : Shape) (⟨2, ![E, 1]⟩ : Shape) (⟨2, ![C, E]⟩ : Shape) [0] [1] [] [1] [] 1 ![C, 1])

/-- The dimension numbers: offset axis 0 of the result, collapsed operand axis 1, start indices for operand axis 1,
    the index vector on the start indices' axis 1, slices of `C` rows by one column. -/
abbrev colGather : GatherDims (⟨2, ![C, N]⟩ : Shape) (⟨2, ![E, 1]⟩ : Shape) (⟨2, ![C, E]⟩ : Shape) where
  offsetDims := [0]
  collapsedSliceDims := [1]
  operandBatchingDims := []
  startIndicesBatchingDims := []
  startIndexMap := [1]
  indexVectorDim := 1
  sliceSizes := ![C, 1]
  wf := wf

/-- Result index `j` reads its one start-index component at `(j 1, 0)` of the start indices. -/
theorem colGather_siIdx (j : (⟨2, ![C, E]⟩ : Shape).Idx) (c : Fin (colGather wf).startIndexMap.length) :
    (colGather wf).siIdx j c = ix2 (j 1) (0 : Fin 1) := by
  funext b; refine Fin.ext ?_
  match b with
  | ⟨0, _⟩ => rfl
  | ⟨1, _⟩ =>
    show c.val = 0
    have : c.val < 1 := c.isLt
    omega

/-- No start index names operand axis 0: the slice starts at row 0. -/
theorem colGather_start0 (j : (⟨2, ![C, E]⟩ : Shape).Idx) (idx : IVec (⟨2, ![E, 1]⟩ : Shape) w) (h0) :
    (colGather wf).start j idx ⟨0, h0⟩ = 0 := by
  have hm : (⟨0, h0⟩ : Fin (⟨2, ![C, N]⟩ : Shape).rank) ∉ (colGather wf).startIndexMap := by
    show (0 : Fin 2) ∉ ([1] : List (Fin 2)); decide
  unfold GatherDims.start
  rw [dif_neg hm]

/-- On operand axis 1 the slice starts at the index word of result column `j 1`, read signed and clamped to the
    last column. -/
theorem colGather_start1 (j : (⟨2, ![C, E]⟩ : Shape).Idx) (idx : IVec (⟨2, ![E, 1]⟩ : Shape) w) (h1) :
    (colGather wf).start j idx ⟨1, h1⟩ = min (idx (ix2 (j 1) (0 : Fin 1))).toInt.toNat (N - 1) := by
  have hm : (⟨1, h1⟩ : Fin (⟨2, ![C, N]⟩ : Shape).rank) ∈ (colGather wf).startIndexMap := by
    show (1 : Fin 2) ∈ ([1] : List (Fin 2)); decide
  unfold GatherDims.start
  rw [dif_pos hm, colGather_siIdx wf j]
  rfl

/-- On operand axis 0 the offset coordinate is the result's row. -/
theorem colGather_off0 (j : (⟨2, ![C, E]⟩ : Shape).Idx) (h0) : (colGather wf).offCoord j ⟨0, h0⟩ = (j 0).val := by
  have hm : (⟨0, h0⟩ : Fin (⟨2, ![C, N]⟩ : Shape).rank) ∈ (colGather wf).sKept :=
    (GatherDims.mem_sKept _ _).2 ⟨by show (0 : Fin 2) ∉ ([1] : List (Fin 2)); decide, List.not_mem_nil⟩
  unfold GatherDims.offCoord
  rw [dif_pos hm]
  rfl

/-- Operand axis 1 is collapsed: offset coordinate 0. -/
theorem colGather_off1 (j : (⟨2, ![C, E]⟩ : Shape).Idx) (h1) : (colGather wf).offCoord j ⟨1, h1⟩ = 0 := by
  have hm : (⟨1, h1⟩ : Fin (⟨2, ![C, N]⟩ : Shape).rank) ∉ (colGather wf).sKept := fun h =>
    ((GatherDims.mem_sKept _ _).1 h).1 (by show (1 : Fin 2) ∈ ([1] : List (Fin 2)); decide)
  exact GatherDims.offCoord_eq_zero _ j _ hm

/-- The gather read at `(c, e)`: the operand at row `c` and at the column word of `e`, read signed and clamped
    into `[0, N − 1]`. -/
theorem gather_cols (hN : 0 < N) (x : (⟨2, ![C, N]⟩ : Shape).Idx → α) (idx : IVec (⟨2, ![E, 1]⟩ : Shape) w)
    (c : Fin C) (e : Fin E) :
    Host.gather (colGather wf) x idx (ix2 c e)
      = x (ix2 c ⟨min (idx (ix2 e (0 : Fin 1))).toInt.toNat (N - 1), by omega⟩) := by
  unfold Host.gather
  congr 1
  funext a; refine Fin.ext ?_
  match a with
  | ⟨0, h0⟩ =>
    show (colGather wf).start (ix2 c e) idx ⟨0, h0⟩ + (colGather wf).batchCoord (ix2 c e) ⟨0, h0⟩
      + (colGather wf).offCoord (ix2 c e) ⟨0, h0⟩ = c.val
    rw [colGather_start0, GatherDims.batchCoord_eq_zero _ _ _ List.not_mem_nil, colGather_off0]
    show 0 + 0 + c.val = c.val
    omega
  | ⟨1, h1⟩ =>
    show (colGather wf).start (ix2 c e) idx ⟨1, h1⟩ + (colGather wf).batchCoord (ix2 c e) ⟨1, h1⟩
      + (colGather wf).offCoord (ix2 c e) ⟨1, h1⟩ = min (idx (ix2 e (0 : Fin 1))).toInt.toNat (N - 1)
    rw [colGather_start1, GatherDims.batchCoord_eq_zero _ _ _ List.not_mem_nil, colGather_off1]
    rfl
end GatherCols

/-! ## The reference's stages at an index -/

/-- The scatter's index word of update column `e` is entry `e`'s wrapped column word. -/
theorem v16_apply (ci : IVec S2000000 32) (e : Fin 2000000) :
    Cert.ReferenceIdeal.Read.val_main_v16 (F := Ideal) ci (ix2 e (0 : Fin 1)) = Cert.Sparse.colW ci e := by
  have hi : Cert.ReferenceIdeal.Read.idx_main_v16 (ix2 e (0 : Fin 1)) = ix1 e := by
    funext a; match a with | ⟨0, _⟩ => rfl
  rw [Cert.ReferenceIdeal.Read.val_main_v16_apply, hi, Cert.ReferenceIdeal.Read.val_main_v15_apply,
    Cert.ReferenceIdeal.Read.val_main_v12_apply, Cert.ReferenceIdeal.Read.val_main_v14_apply,
    Cert.ReferenceIdeal.Read.val_main_v11_apply, Cert.ReferenceIdeal.Read.val_main_v13_apply,
    Cert.ReferenceIdeal.Read.val_main_c_1_apply, Cert.ReferenceIdeal.Read.val_main_c_2_apply]
  rfl

/-- The gather's start-index word of result column `e` is entry `e`'s wrapped row word. -/
theorem v5_apply (ri : IVec S2000000 32) (e : Fin 2000000) :
    Cert.ReferenceIdeal.Read.val_main_v5 (F := Ideal) ri (ix2 e (0 : Fin 1)) = Cert.Sparse.rowW ri e := by
  have hi : Cert.ReferenceIdeal.Read.idx_main_v5 (ix2 e (0 : Fin 1)) = ix1 e := by
    funext a; match a with | ⟨0, _⟩ => rfl
  rw [Cert.ReferenceIdeal.Read.val_main_v5_apply, hi, Cert.ReferenceIdeal.Read.val_main_v4_apply,
    Cert.ReferenceIdeal.Read.val_main_v1_apply, Cert.ReferenceIdeal.Read.val_main_v3_apply,
    Cert.ReferenceIdeal.Read.val_main_v0_apply, Cert.ReferenceIdeal.Read.val_main_v2_apply,
    Cert.ReferenceIdeal.Read.val_main_c_apply, Cert.ReferenceIdeal.Read.val_main_c_0_apply]
  rfl

/-- The gathered matrix at `(b, e)`: x at row `b` and at entry `e`'s clamped row. -/
theorem v6_apply (x : FVec Ideal S64x50000 .f32) (ri : IVec S2000000 32) (b : Fin 64) (e : Fin 2000000) :
    Cert.ReferenceIdeal.Read.val_main_v6 (F := Ideal) x ri (ix2 b e) = x (ix2 b (Cert.Sparse.gRow ri e)) := by
  unfold Cert.ReferenceIdeal.Read.val_main_v6
  refine (gather_cols (N := 50000) Facts₀.gather_S64x50000_S2000000x1_S64x2000000_0_1_n_n_1_1_641_wf (by omega)
    x (Cert.ReferenceIdeal.Read.val_main_v5 (F := Ideal) ri) b e).trans ?_
  refine congrArg (fun k => x (ix2 b k)) (Fin.ext ?_)
  show min (Cert.ReferenceIdeal.Read.val_main_v5 (F := Ideal) ri (ix2 e (0 : Fin 1))).toInt.toNat (50000 - 1)
    = min (Cert.Sparse.rowW ri e).toInt.toNat 49999
  rw [v5_apply]

/-- The broadcast weights at `(b, e)`: entry `e`'s weight. -/
theorem v8_apply (w : FVec Ideal S2000000 .f32) (b : Fin 64) (e : Fin 2000000) :
    Cert.ReferenceIdeal.Read.val_main_v8 (F := Ideal) w (ix2 b e) = w (ix1 e) := by
  have hi : Cert.ReferenceIdeal.Read.idx_main_v7 (Cert.ReferenceIdeal.Read.idx_main_v8 (ix2 b e)) = ix1 e := by
    funext a; match a with | ⟨0, _⟩ => rfl
  rw [Cert.ReferenceIdeal.Read.val_main_v8_apply, Cert.ReferenceIdeal.Read.val_main_v7_apply, hi]

/-- The update matrix at `(b, e)`: x at entry `e`'s clamped row times entry `e`'s weight. -/
theorem v9_apply (x : FVec Ideal S64x50000 .f32) (w : FVec Ideal S2000000 .f32) (ri : IVec S2000000 32)
    (b : Fin 64) (e : Fin 2000000) :
    Cert.ReferenceIdeal.Read.val_main_v9 (F := Ideal) x w ri (ix2 b e)
      = x (ix2 b (Cert.Sparse.gRow ri e)) * w (ix1 e) := by
  rw [Cert.ReferenceIdeal.Read.val_main_v9_apply, Ideal.mulf_def, v6_apply, v8_apply]

/-- The scatter's operand is zero everywhere. -/
theorem v10_apply (i : S64x1024.Idx) : Cert.ReferenceIdeal.Read.val_main_v10 (F := Ideal) i = 0 := by
  rw [Cert.ReferenceIdeal.Read.val_main_v10_apply, Cert.ReferenceIdeal.Read.val_main_cst_apply]
  exact Ideal.ofBits_zero_f32

/-- At the ideal values the host's accumulating scatter is the exact one. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The reference's last stage read at (b, n). -/
theorem ref_apply (x : FVec Ideal S64x50000 .f32) (w : FVec Ideal S2000000 .f32) (ri ci : IVec S2000000 32)
    (b : Fin 64) (n : Fin 1024) :
    Cert.ReferenceIdeal.Read.val_main_v17 (F := Ideal) x w ri ci (ix2 b n) = Cert.Sparse.refOut x w ri ci b n := by
  unfold Cert.ReferenceIdeal.Read.val_main_v17 Cert.Sparse.refOut
  rw [scatterAdd_ideal]
  refine (Cert.LibScatterSum.scatterAdd_cols Facts₀.scatter_S64x1024_S2000000x1_S64x2000000_0_1_1_1_wf
    (Cert.ReferenceIdeal.Read.val_main_v10 (F := Ideal)) (Cert.ReferenceIdeal.Read.val_main_v16 (F := Ideal) ci)
    (Cert.ReferenceIdeal.Read.val_main_v9 (F := Ideal) x w ri) b n).trans ?_
  rw [v10_apply]
  exact congrArg (fun s => (0 : EReal) + s)
    (Finset.sum_congr (Finset.filter_congr (fun e _ => by rw [v16_apply])) (fun e _ => v9_apply x w ri b e))

end Cert.Sparse.Ref

end
-- ==== Proof.lean ====
/-
  A sparse matrix in coordinate form (row word, column word, weight per entry) applied to a dense matrix x.

  One program scatters the weights into a dense [50000, 1024] matrix, pads the contraction axis with zeros to
  50176 and multiplies tile by tile; the other gathers, for every entry, the column of x at the entry's row,
  scales it by the weight and scatter-adds it onto the entry's output column.  Over the extended reals, for finite
  x and w and row words in [-50000, 50000), both give at (b, n) the sum over the entries of output column n of
  x(b, row) · weight: distributing the product over the dense matrix's defining sum and exchanging the two sums
  collapses the sum over rows to the entry's own row.  A row word outside that range is dropped by the scatter but
  clamped by the gather, which is why the range is assumed; a column word outside its range is dropped by both.
-/
import proofs.«415735_j68092411511135_1_alg».proof.Defs
import proofs.«415735_j68092411511135_1_alg».proof.Proof.Gen.Kernel.Frame
import proofs.«415735_j68092411511135_1_alg».proof.Proof.Gen.KernelIdeal.Value
import proofs.«415735_j68092411511135_1_alg».proof.Proof.Gen.Pre_finite_inputs
import proofs.«415735_j68092411511135_1_alg».proof.Proof.Gen.ReferenceIdeal.Run
import proofs.«415735_j68092411511135_1_alg».proof.Proof.Gen.ReferenceIdeal.Read
import proofs.«415735_j68092411511135_1_alg».proof.Proof.Spec
import proofs.«415735_j68092411511135_1_alg».proof.Proof.PreDecode
import proofs.«415735_j68092411511135_1_alg».proof.Proof.KernelHost
import proofs.«415735_j68092411511135_1_alg».proof.Proof.KernelFold
import proofs.«415735_j68092411511135_1_alg».proof.Proof.RefRead
import Idealize.ShloMosaic.Adequacy
import Idealize.ShloMosaic.Init

noncomputable section

namespace Cert.Proof

open Idealize.ShloMosaic Idealize.SL.Sem Idealize.ShloMosaic.TcCoe Idealize.ShloMosaic.ValueIdx

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- Where the precondition holds of the kernel's arguments, the reference's last stage of those arguments is the
    kernel's result array: entry by entry both are the entries' sum. -/
theorem result_eq (m : (ℓ : Loc Cert.KernelIdeal.nD Cert.KernelIdeal.τ Cert.KernelIdeal.sig) → Buf (Elt Ideal) ℓ)
    (c : Dev Cert.KernelIdeal.nD)
    (hp : Cert.Pre_finite_inputs.fn (F := Ideal) (Cert.Sparse.Kernel.xin m c) (Cert.Sparse.Kernel.win m c)
      (Cert.Sparse.Kernel.rin m c) (Cert.Sparse.Kernel.cin m c) = fun _ => 1#1) :
    Cert.ReferenceIdeal.Read.val_main_v17 (F := Ideal) (Cert.Sparse.Kernel.xin m c) (Cert.Sparse.Kernel.win m c)
      (Cert.Sparse.Kernel.rin m c) (Cert.Sparse.Kernel.cin m c) = Cert.KernelIdeal.Value.G2 (F := Ideal) m c := by
  obtain ⟨hx, hw, hr⟩ := Cert.Sparse.Pre.decode _ _ _ _ hp
  funext i
  obtain ⟨b, n, rfl⟩ : ∃ (b : Fin 64) (n : Fin 1024), i = ix2 b n := ⟨i 0, i 1, eq_ix2 i⟩
  refine (Cert.Sparse.Ref.ref_apply _ _ _ _ b n).trans ?_
  refine Eq.trans ?_ (Cert.Sparse.Kernel.G2_apply m c b n).symm
  refine (Cert.Sparse.kernelOut_eq_refOut _ _ _ _ b n hx hw
    (fun e => Cert.Sparse.wrap_range _ (hr e).1 (hr e).2)).symm.trans ?_
  unfold Cert.Sparse.kernelOut
  refine Finset.sum_congr rfl fun k _ => ?_
  rw [Cert.Sparse.Kernel.xpad_apply, Cert.Sparse.Kernel.spad_apply]

/-- From memories agreeing on the arguments both programs end with the same result array. -/
theorem algebraic_KernelIdeal_ReferenceIdeal : algebraic_KernelIdeal_ReferenceIdeal := by
  intro m ρ m' ρ' hpre hagree
  refine ⟨fun c => Cert.KernelIdeal.Value.G2 (F := Ideal) m c, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2.1, (hagree c).2.2.2]
  exact result_eq m c (hpre c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
